-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768 : Shape := ⟨2, ![32, 768]⟩
abbrev S768x100000 : Shape := ⟨2, ![768, 100000]⟩
abbrev S100000 : Shape := ⟨1, ![100000]⟩
abbrev S_ : Shape := ⟨0, ![]⟩

class Facts : Prop where
  bcast_S_S32x768 : S_.BroadcastsInDim S32x768 (![] : Fin 0 → Fin S32x768.rank)
  reducesTo_S32x768_S_d0_1 : S32x768.ReducesTo [0, 1] S_
  h_S_ : 0 < S_.numel
  bcast_S_S768x100000 : S_.BroadcastsInDim S768x100000 (![] : Fin 0 → Fin S768x100000.rank)
  reducesTo_S768x100000_S_d0_1 : S768x100000.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  main_v18

def fn {F : FTy → Type} [FloatOps F] (main_arg0 : FVec F S32x768 .f32) (main_arg1 : FVec F S768x100000 .f32) (main_arg2 : FVec F S100000 .f32) (main_arg3 : FVec F S100000 .f32) : IVec S_ 1 :=
  let main_v0 : FVec F S32x768 .f32 := Host.absf main_arg0
  let main_cst : FVec F S_ .f32 := constant S_ .f32 0x7F800000#32
  let main_v1 : FVec F S32x768 .f32 := broadcastInDim S32x768 ![] bcast_S_S32x768 main_cst
  let main_v2 : IVec S32x768 1 := cmpf .olt main_v0 main_v1
  let main_c : IVec S_ 1 := constantI S_ 1 1#1
  let main_v3 : IVec S_ 1 := (fun x v => Host.reduce IntOp.andi x v reducesTo_S32x768_S_d0_1 h_S_) main_v2 main_c
  let main_v4 : FVec F S768x100000 .f32 := Host.absf main_arg1
  let main_cst_0 : FVec F S_ .f32 := constant S_ .f32 0x7F800000#32
  let main_v5 : FVec F S768x100000 .f32 := broadcastInDim S768x100000 ![] bcast_S_S768x100000 main_cst_0
  let main_v6 : IVec S768x100000 1 := cmpf .olt main_v4 main_v5
  let main_c_1 : IVec S_ 1 := constantI S_ 1 1#1
  let main_v7 : IVec S_ 1 := (fun x v => Host.reduce IntOp.andi x v reducesTo_S768x100000_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_v13 main_v16
-- ==== Kernel.lean ====
abbrev S32x768 : Shape := ⟨2, ![32, 768]⟩
abbrev S768x100000 : Shape := ⟨2, ![768, 100000]⟩
abbrev S100000 : Shape := ⟨1, ![100000]⟩
abbrev S100000x768 : Shape := ⟨2, ![100000, 768]⟩
abbrev S_ : Shape := ⟨0, ![]⟩
abbrev S102400 : Shape := ⟨1, ![102400]⟩
abbrev S1x102400 : Shape := ⟨2, ![1, 102400]⟩
abbrev S32x100000 : Shape := ⟨2, ![32, 100000]⟩
abbrev S4096x768 : Shape := ⟨2, ![4096, 768]⟩
abbrev S32x4096 : Shape := ⟨2, ![32, 4096]⟩
abbrev S1x4096 : Shape := ⟨2, ![1, 4096]⟩

abbrev nBuf : Space → Nat
  | .hbm => 14
  | .vmem => 7
  | .smem => 0
  | _ => 0

abbrev bufTy : (tb : Table) → Fin (tcTables nBuf tb) → BufTy
  | .hbm, ⟨0, _⟩ => ⟨S32x768, .f32⟩
  | .hbm, ⟨1, _⟩ => ⟨S768x100000, .f32⟩
  | .hbm, ⟨2, _⟩ => ⟨S100000, .f32⟩
  | .hbm, ⟨3, _⟩ => ⟨S100000, .f32⟩
  | .hbm, ⟨4, _⟩ => ⟨S100000x768, .f32⟩
  | .hbm, ⟨5, _⟩ => ⟨S_, .i32⟩
  | .hbm, ⟨6, _⟩ => ⟨S_, .f32⟩
  | .hbm, ⟨7, _⟩ => ⟨S102400, .f32⟩
  | .hbm, ⟨8, _⟩ => ⟨S1x102400, .f32⟩
  | .hbm, ⟨9, _⟩ => ⟨S_, .i32⟩
  | .hbm, ⟨10, _⟩ => ⟨S_, .f32⟩
  | .hbm, ⟨11, _⟩ => ⟨S102400, .f32⟩
  | .hbm, ⟨12, _⟩ => ⟨S1x102400, .f32⟩
  | .hbm, ⟨13, _⟩ => ⟨S32x100000, .f32⟩
  | .local _ .vmem, ⟨0, _⟩ => ⟨S32x768, .f32⟩
  | .local _ .vmem, ⟨1, _⟩ => ⟨S4096x768, .f32⟩
  | .local _ .vmem, ⟨2, _⟩ => ⟨S4096x768, .f32⟩
  | .local _ .vmem, ⟨3, _⟩ => ⟨S1x102400, .f32⟩
  | .local _ .vmem, ⟨4, _⟩ => ⟨S1x102400, .f32⟩
  | .local _ .vmem, ⟨5, _⟩ => ⟨S32x4096, .f32⟩
  | .local _ .vmem, ⟨6, _⟩ => ⟨S32x4096, .f32⟩
  | _, _ => ⟨S32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let c0_3 : Index := 0#32
  let arg0 : BitVec 32 := BitVec.ofNat 32 (i 0).val
  let c4096_i32 : BitVec 32 := 4096#32
  let v4 : BitVec 32 := Scalar.muli arg0 c4096_i32
  let v5 : Index := Scalar.indexCast v4
  ![0, v5.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x102400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x102400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S768x100000_S100000x768_1_0 : S768x100000.Transposes [1, 0] S100000x768
  pads_S100000_S102400_024000 : S100000.Pads (![0] : Fin 1 → Nat) ![2400] ![0] S102400
  h_S_ : 0 < S_.numel
  shapeCasts_S102400_S1x102400 : S102400.ShapeCasts S1x102400
  inb_S32x768_S32x768_0_0 : ∀ a, (![0, 0] : Fin 2 → Nat) a + S32x768.size a ≤ S32x768.size a
  h_S32x768 : 0 < S32x768.numel
  inb_S4096x768_S4096x768_0_0 : ∀ a, (![0, 0] : Fin 2 → Nat) a + S4096x768.size a ≤ S4096x768.size a
  h_S4096x768 : 0 < S4096x768.numel
  shapeCasts_S4096x768_S4096x768 : S4096x768.ShapeCasts S4096x768
  h_S1x4096 : 0 < S1x4096.numel
  shapeCasts_S1x4096_S1x4096 : S1x4096.ShapeCasts S1x4096
  broadcasts_S1x4096_S32x4096 : S1x4096.Broadcasts S32x4096
  inb_S32x4096_S32x4096_0_0 : ∀ a, (![0, 0] : Fin 2 → Nat) a + S32x4096.size a ≤ S32x4096.size a
  h_S32x4096 : 0 < S32x4096.numel
  dot_S32x768_S4096x768_S32x4096_1_1_0_0_n_n_wf : DotDims.WF S32x768 S4096x768 S32x4096 [1] [1] [0] [0] [] []
  hrank0 : 0 < grid0.rank
  k0_off1_inb : ∀ i : grid0.Coords, ∀ a, (k0_off1 i) a + S1x4096.size a ≤ S1x102400.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x768.size a ≤ S32x768.size a
  hwx0_0 : ∀ i : grid0.Coords, EltTy.bits .f32 = 32 ∨ (Rect.block (s := S32x768) S32x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x768.size a < S100000x768.size a
  hwx0_1 : ∀ i : grid0.Coords, EltTy.bits .f32 = 32 ∨ (Rect.unit (s := S100000x768) (fun a => cc0_transform_1 i a * S4096x768.size a) (fun a => (Pipeline.Clip.of (cc0_transform_1 i a) (S4096x768.size a) (S100000x768.size a)).extent (S4096x768.size a)) fun a => Pipeline.Clip.inb (Pipeline.Clip.ok_of (hstart0_1 i a))).WholeWords (EltTy.packing .f32)
  hwxs0_1 : ∀ i : grid0.Coords, EltTy.bits .f32 = 32 ∨ (Rect.unit (s := S4096x768) (fun _ => 0) (fun a => (Pipeline.Clip.of (cc0_transform_1 i a) (S4096x768.size a) (S100000x768.size a)).extent (S4096x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x102400.size a ≤ S1x102400.size a
  hwx0_2 : ∀ i : grid0.Coords, EltTy.bits .f32 = 32 ∨ (Rect.block (s := S1x102400) S1x102400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x102400.size a ≤ S1x102400.size a
  hwx0_3 : ∀ i : grid0.Coords, EltTy.bits .f32 = 32 ∨ (Rect.block (s := S1x102400) S1x102400.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S32x4096.size a < S32x100000.size a
  hwx0_4 : ∀ i : grid0.Coords, EltTy.bits .f32 = 32 ∨ (Rect.unit (s := S32x100000) (fun a => cc0_transform_4 i a * S32x4096.size a) (fun a => (Pipeline.Clip.of (cc0_transform_4 i a) (S32x4096.size a) (S32x100000.size a)).extent (S32x4096.size a)) fun a => Pipeline.Clip.inb (Pipeline.Clip.ok_of (hstart0_4 i a))).WholeWords (EltTy.packing .f32)
  hwxs0_4 : ∀ i : grid0.Coords, EltTy.bits .f32 = 32 ∨ (Rect.unit (s := S32x4096) (fun _ => 0) (fun a => (Pipeline.Clip.of (cc0_transform_4 i a) (S32x4096.size a) (S32x100000.size a)).extent (S32x4096.size a)) fun a => (Nat.zero_add _).trans_le (Pipeline.Clip.extent_le (Pipeline.Clip.ok_of (hstart0_4 i a)))).WholeWords (EltTy.packing .f32)

variable [Facts₀]

def dot_S32x768_S4096x768_S32x4096_1_1_0_0_n_n : DotDims S32x768 S4096x768 S32x4096 where
  lhsContracting := [1]
  rhsContracting := [1]
  lhsNonContracting := [0]
  rhsNonContracting := [0]
  lhsBatch := []
  rhsBatch := []
  wf := dot_S32x768_S4096x768_S32x4096_1_1_0_0_n_n_wf

abbrev win0_0 : Pipeline.Window sig grid0 :=
  Pipeline.Window.ofSpec (Memref.whole main_arg0) S32x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S4096x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S1x102400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x102400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v5) S32x4096.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x768 : Shape := ⟨2, ![32, 768]⟩
abbrev S768x100000 : Shape := ⟨2, ![768, 100000]⟩
abbrev S100000 : Shape := ⟨1, ![100000]⟩
abbrev S32x100000 : Shape := ⟨2, ![32, 100000]⟩
abbrev S1x100000 : Shape := ⟨2, ![1, 100000]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S32x768, .f32⟩
  | .hbm, ⟨1, _⟩ => ⟨S768x100000, .f32⟩
  | .hbm, ⟨2, _⟩ => ⟨S100000, .f32⟩
  | .hbm, ⟨3, _⟩ => ⟨S100000, .f32⟩
  | .hbm, ⟨4, _⟩ => ⟨S32x100000, .f32⟩
  | .hbm, ⟨5, _⟩ => ⟨S1x100000, .f32⟩
  | .hbm, ⟨6, _⟩ => ⟨S32x100000, .f32⟩
  | .hbm, ⟨7, _⟩ => ⟨S32x100000, .f32⟩
  | .hbm, ⟨8, _⟩ => ⟨S1x100000, .f32⟩
  | .hbm, ⟨9, _⟩ => ⟨S_, .f32⟩
  | .hbm, ⟨10, _⟩ => ⟨S1x100000, .f32⟩
  | .hbm, ⟨11, _⟩ => ⟨S1x100000, .f32⟩
  | .hbm, ⟨12, _⟩ => ⟨S_, .f32⟩
  | .hbm, ⟨13, _⟩ => ⟨S1x100000, .f32⟩
  | .hbm, ⟨14, _⟩ => ⟨S1x100000, .f32⟩
  | .hbm, ⟨15, _⟩ => ⟨S_, .f32⟩
  | .hbm, ⟨16, _⟩ => ⟨S1x100000, .f32⟩
  | .hbm, ⟨17, _⟩ => ⟨S1x100000, .f32⟩
  | .hbm, ⟨18, _⟩ => ⟨S1x100000, .f32⟩
  | .hbm, ⟨19, _⟩ => ⟨S32x100000, .f32⟩
  | .hbm, ⟨20, _⟩ => ⟨S32x100000, .f32⟩
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  bcast_S1x100000_S32x100000_0_1 : S1x100000.BroadcastsInDim S32x100000 (![0, 1] : Fin 2 → Fin S32x100000.rank)
  shapeCasts_S100000_S1x100000 : S100000.ShapeCasts S1x100000
  bcast_S_S1x100000 : S_.BroadcastsInDim S1x100000 (![] : Fin 0 → Fin S1x100000.rank)
  dot_S32x768_S768x100000_S32x100000_1_0_0_1_n_n_wf : DotDims.WF S32x768 S768x100000 S32x100000 [1] [0] [0] [1] [] []

variable [Facts₀]

def dot_S32x768_S768x100000_S32x100000_1_0_0_1_n_n : DotDims S32x768 S768x100000 S32x100000 where
  lhsContracting := [1]
  rhsContracting := [0]
  lhsNonContracting := [0]
  rhsNonContracting := [1]
  lhsBatch := []
  rhsBatch := []
  wf := dot_S32x768_S768x100000_S32x100000_1_0_0_1_n_n_wf

class Facts : Prop extends Facts₀ where

variable [Facts]
-- ==== Proof.KernelBody.lean ====
/-
  The kernel body of the one pallas_call, at any float instance: on whole staging buffers holding the
  activations block, one block of 4096 rows of the transposed weights, and the two padded rows (bias, mask),
  the body stores into the output's staging buffer
    (h · wᵀ + bias[j·4096 ‥ (j+1)·4096)) + (1 − mask[j·4096 ‥ (j+1)·4096)) · (−1e9)
  and leaves the four input buffers as it found them.
-/
import proofs.«163261_g78194174591064_cont_9to1_m_1273_14_alg».proof.Proof.Gen.Kernel.Frame
import proofs.«163261_g78194174591064_cont_9to1_m_1273_14_alg».proof.Proof.Gen.Kernel.Skeleton
import Idealize.ShloMosaic.Lib.Pipeline.Kit
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

/-- The whole activations buffer, the whole weights buffer, the whole output buffer. -/
abbrev rH : Rect S32x768 := Rect.unit (s := S32x768) ![0, 0] S32x768.size inb_S32x768_S32x768_0_0
abbrev rW : Rect S4096x768 := Rect.unit (s := S4096x768) ![0, 0] S4096x768.size inb_S4096x768_S4096x768_0_0
abbrev rO : Rect S32x4096 := Rect.unit (s := S32x4096) ![0, 0] S32x4096.size inb_S32x4096_S32x4096_0_0
/-- The 4096 columns of a padded row that grid point `i` reads: columns `i·4096 ‥ (i+1)·4096`. -/
abbrev rRow (i : grid0.Coords) : Rect S1x102400 := Rect.unit (s := S1x102400) (k0_off1 i) S1x4096.size (k0_off1_inb i)

/-- What the body leaves in the output's staging buffer, from what the four input buffers hold: its one
    store, of the whole buffer. -/
def outBlock (i : grid0.Coords) (x0 : Vec F S32x768 .f32) (x1 : Vec F S4096x768 .f32) (x2 x3 : Vec F S1x102400 .f32) : Vec F S32x4096 .f32 :=
  View.canon [⟨rO, k0_pay1 (View.ld x0 rH) (View.ld x1 rW) (View.ld x2 (rRow i)) (View.ld x3 (rRow i))⟩]

/-- The one store covers the buffer. -/
theorem outCover (p0 : Vec F S32x4096 .f32) (y : S32x4096.Idx) :
    ∃ pc ∈ ([⟨rO, p0⟩] : List (View.Piece (Elt F) S32x4096 .f32)), y ∈ pc.1.set :=
  View.cover_of_tiled [⟨rO, p0⟩] S32x4096.size (by rfl) y

/-! ## The body's triple -/

set_option maxHeartbeats 1000000 in
/-- On whole staging memrefs, the four inputs' at contents `x0 … x3` and the output's at anything, the body runs
    to the continuation holding the inputs' as they were and the output's at `outBlock` of them: four loads
    (two of them at the point's column offset), a load of the output buffer nothing reads, one store. -/
theorem sound_kernel (c : Dev nD) (E : Set ℕ) (i : grid0.Coords)
    (arg1 : Memref sig .tc .vmem S32x768 .f32) (harg1 : arg1.IsWhole) (arg2 : Memref sig .tc .vmem S4096x768 .f32) (harg2 : arg2.IsWhole)
    (arg3 : Memref sig .tc .vmem S1x102400 .f32) (harg3 : arg3.IsWhole) (arg4 : Memref sig .tc .vmem S1x102400 .f32) (harg4 : arg4.IsWhole)
    (arg5 : Memref sig .tc .vmem S32x4096 .f32) (harg5 : arg5.IsWhole)
    (x0 : Vec F S32x768 .f32) (x1 : Vec F S4096x768 .f32) (x2 x3 : Vec F S1x102400 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlock i x0 x1 x2 x3)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The pipeline's proof data -/

variable (m : (ℓ : Loc nD τ sig) → Buf (Elt F) ℓ) (ρ : Dev nD → PrngReg)

/-- The weights buffer as the proof data names it after the body at point `t`: the rows of the transposed
    weights' block that lie inside the array (all 4096 at points 0 … 23, the first 1696 at point 24), and the
    zero word on the rows past the array's end, which nothing the certificate states reads. -/
def wblk (c : Dev nD) (t : Fin cfg0.N) : S4096x768.Idx → Elt F .f32 :=
  win0_1.fill (grid0.coords t) (fun _ => Scalar.ofBits .f32 0#32) (iblk m c 1 t)

/-- The proof data of the one pipeline on core `c`: the arrays as the region finds them; after the body at point
    `t` the activations', bias row's and mask row's buffers at their (whole-array) blocks, the weights' at `wblk`,
    the output's at `outBlock` of those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => iblk m c 3 t
    | ⟨4, _⟩ => outBlock (grid0.coords t) (iblk m c 0 t) (wblk m c t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wblk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (grid0.coords t) (iblk m c 0 t) (wblk m c t) (iblk m c 2 t) (iblk m c 3 t) := by dsimp only [dats]

/-- The three windows whose block is their whole array hold it at every point, fetched there or not. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The weights' window is fetched at every point: its buffer holds the block's rows inside the array, and
    on the rows past the array's end whatever the overwrite before the fetch left (`d`). -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-- What the proof data names for the weights' buffer is its block on the rows inside the array. -/
theorem cut_wblk (c : Dev nD) (t : Fin cfg0.N) : win0_1.cut (grid0.coords t) (wblk m c t) = iblk m c 1 t :=
  win0_1.cut_fill _ _ _

/-! ## The body at a point -/

/-- The body at any point `t`, with a predicate `R` of the output block it leaves that holds whatever the
    weights' buffer held past the array's end: each input's buffer comes back as it was found, the output's at
    contents satisfying `R`; the invariant and what the core owes pass through unread. -/
theorem sound_body (c : Dev nD) (t : Fin cfg0.N) (R : (S32x4096.Idx → Elt F .f32) → Prop)
    (hR : ∀ d1, R (outBlock (grid0.coords t) (iblk m c 0 t) (win0_1.fill (grid0.coords t) d1 (iblk m c 1 t)) (iblk m c 2 t) (iblk m c 3 t))) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ X, owns (c : Thread nD τ) (st0_4 t) fullShare X))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ (∃ d, owns (c : Thread nD τ) (st0_1 t) fullShare (win0_1.fill (grid0.coords t) d (win0_1.cut (grid0.coords t) ((dats m 0 c).after 1 t))))
        ∗ owns (c : Thread nD τ) (st0_2 t) fullShare ((dats m 0 c).after 2 t)
        ∗ owns (c : Thread nD τ) (st0_3 t) fullShare ((dats m 0 c).after 3 t)
        ∗ (∃ X, ⌜R X⌝ ∗ owns (c : Thread nD τ) (st0_4 t) fullShare X))) := by
  unfold bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, cut_wblk]
  iintro ⟨HΦ, Ho, ⟨%d0, H0⟩, ⟨%d1, H1⟩, ⟨%d2, H2⟩, ⟨%d3, H3⟩, ⟨%X4, H4⟩⟩
  iapply (sound_kernel c Set.univ (grid0.coords t) _ _ _ _ _ _ _ _ _ _ (iblk m c 0 t) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists d1; iexact H1
  isplitl [H2]; · iexact H2
  isplitl [H3]; · iexact H3
  iexists _; isplitr
  · ipureintro; exact hR d1
  · iexact H4

end Cert.Kernel.Body

end
-- ==== Proof.KernelFrame.lean ====
/-
  The word-level program runs to the end, faults nowhere and leaves its four argument arrays unchanged.
  Nothing is said of what the output window's staging buffer holds: at bit patterns an output column of the
  matrix product is not known to depend on its own weights row alone, so what the last block computes from the
  rows past the weights' end is not named, and the frame does not need it.
-/
import proofs.«163261_g78194174591064_cont_9to1_m_1273_14_alg».proof.Proof.KernelBody

set_option maxRecDepth 16384

noncomputable section

namespace Cert.Kernel.FrameProof

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose staging contents are left unnamed: the output's. -/
def forgets : Fin 5 → Bool := fun | 0 => false | 1 => false | 2 => false | 3 => false | 4 => true | ⟨_ + 5, h⟩ => absurd h (Nat.not_lt.2 (Nat.le_add_left _ _))

theorem forgets_0 : forgets 0 = false := rfl
theorem forgets_1 : forgets 1 = false := rfl
theorem forgets_2 : forgets 2 = false := rfl
theorem forgets_3 : forgets 3 = false := rfl
theorem forgets_4 : forgets 4 = true := rfl

/-- The body obligation with the output window forgotten: the inputs' buffers come back as found (the weights'
    stated on the rows inside the array), the output's at anything. -/
theorem body_obligation (c : Dev nD) :
    BodyObligationLoose (dats (F := F) m 0 c) (defs₀ (F := F)) Variants.none () Set.univ forgets := fun t => by
  rw [bigSep_W0, bigSep_W0]
  simp only [forgets_0, forgets_1, forgets_2, forgets_3, forgets_4]
  refine (sound_body m c t (fun _ => True) (fun _ => trivial)).trans (wp_mono _ _ _ fun _ => ?_)
  iintro ⟨HΦ, Ho, H0, H1, H2, H3, ⟨%X, -, H4⟩⟩
  isplitl [HΦ]; · iexact HΦ
  isplitl [Ho]; · iexact Ho
  isplitl [H0]; · iexact H0
  isplitl [H1]; · iexact H1
  isplitl [H2]; · iexact H2
  isplitl [H3]; · iexact H3
  iexists X; iexact H4

set_option backward.isDefEq.respectTransparency.types false in
/-- Every weakly fair execution of @main terminates; every windowed array ends at contents it may hold after
    the write-backs (an input: its entry contents) and every other unscoped buffer as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame: the activations are a window's input, read back at their entry contents; the weights, the bias
    and the mask are staged through host-made copies, so no window touches them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((Pipeline.RDat.FramePost.arr_in h c 0 rfl).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.FrameProof

end
-- ==== Proof.IdealBody.lean ====
/-
  The kernel body of the one pallas_call, at any float instance: on whole staging buffers holding the
  activations block, one block of 4096 rows of the transposed weights, and the two padded rows (bias, mask),
  the body stores into the output's staging buffer
    (h · wᵀ + bias[j·4096 ‥ (j+1)·4096)) + (1 − mask[j·4096 ‥ (j+1)·4096)) · (−1e9)
  and leaves the four input buffers as it found them.
-/
import proofs.«163261_g78194174591064_cont_9to1_m_1273_14_alg».proof.Proof.Gen.KernelIdeal.Frame
import proofs.«163261_g78194174591064_cont_9to1_m_1273_14_alg».proof.Proof.Gen.KernelIdeal.Skeleton
import Idealize.ShloMosaic.Lib.Pipeline.Kit
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

/-- The whole activations buffer, the whole weights buffer, the whole output buffer. -/
abbrev rH : Rect S32x768 := Rect.unit (s := S32x768) ![0, 0] S32x768.size inb_S32x768_S32x768_0_0
abbrev rW : Rect S4096x768 := Rect.unit (s := S4096x768) ![0, 0] S4096x768.size inb_S4096x768_S4096x768_0_0
abbrev rO : Rect S32x4096 := Rect.unit (s := S32x4096) ![0, 0] S32x4096.size inb_S32x4096_S32x4096_0_0
/-- The 4096 columns of a padded row that grid point `i` reads: columns `i·4096 ‥ (i+1)·4096`. -/
abbrev rRow (i : grid0.Coords) : Rect S1x102400 := Rect.unit (s := S1x102400) (k0_off1 i) S1x4096.size (k0_off1_inb i)

/-- What the body leaves in the output's staging buffer, from what the four input buffers hold: its one
    store, of the whole buffer. -/
def outBlock (i : grid0.Coords) (x0 : Vec F S32x768 .f32) (x1 : Vec F S4096x768 .f32) (x2 x3 : Vec F S1x102400 .f32) : Vec F S32x4096 .f32 :=
  View.canon [⟨rO, k0_pay1 (View.ld x0 rH) (View.ld x1 rW) (View.ld x2 (rRow i)) (View.ld x3 (rRow i))⟩]

/-- The one store covers the buffer. -/
theorem outCover (p0 : Vec F S32x4096 .f32) (y : S32x4096.Idx) :
    ∃ pc ∈ ([⟨rO, p0⟩] : List (View.Piece (Elt F) S32x4096 .f32)), y ∈ pc.1.set :=
  View.cover_of_tiled [⟨rO, p0⟩] S32x4096.size (by rfl) y

/-! ## The body's triple -/

set_option maxHeartbeats 1000000 in
/-- On whole staging memrefs, the four inputs' at contents `x0 … x3` and the output's at anything, the body runs
    to the continuation holding the inputs' as they were and the output's at `outBlock` of them: four loads
    (two of them at the point's column offset), a load of the output buffer nothing reads, one store. -/
theorem sound_kernel (c : Dev nD) (E : Set ℕ) (i : grid0.Coords)
    (arg1 : Memref sig .tc .vmem S32x768 .f32) (harg1 : arg1.IsWhole) (arg2 : Memref sig .tc .vmem S4096x768 .f32) (harg2 : arg2.IsWhole)
    (arg3 : Memref sig .tc .vmem S1x102400 .f32) (harg3 : arg3.IsWhole) (arg4 : Memref sig .tc .vmem S1x102400 .f32) (harg4 : arg4.IsWhole)
    (arg5 : Memref sig .tc .vmem S32x4096 .f32) (harg5 : arg5.IsWhole)
    (x0 : Vec F S32x768 .f32) (x1 : Vec F S4096x768 .f32) (x2 x3 : Vec F S1x102400 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlock i x0 x1 x2 x3)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The pipeline's proof data -/

variable (m : (ℓ : Loc nD τ sig) → Buf (Elt F) ℓ) (ρ : Dev nD → PrngReg)

/-- The weights buffer as the proof data names it after the body at point `t`: the rows of the transposed
    weights' block that lie inside the array (all 4096 at points 0 … 23, the first 1696 at point 24), and the
    zero word on the rows past the array's end, which nothing the certificate states reads. -/
def wblk (c : Dev nD) (t : Fin cfg0.N) : S4096x768.Idx → Elt F .f32 :=
  win0_1.fill (grid0.coords t) (fun _ => Scalar.ofBits .f32 0#32) (iblk m c 1 t)

/-- The proof data of the one pipeline on core `c`: the arrays as the region finds them; after the body at point
    `t` the activations', bias row's and mask row's buffers at their (whole-array) blocks, the weights' at `wblk`,
    the output's at `outBlock` of those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => iblk m c 3 t
    | ⟨4, _⟩ => outBlock (grid0.coords t) (iblk m c 0 t) (wblk m c t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wblk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (grid0.coords t) (iblk m c 0 t) (wblk m c t) (iblk m c 2 t) (iblk m c 3 t) := by dsimp only [dats]

/-- The three windows whose block is their whole array hold it at every point, fetched there or not. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The weights' window is fetched at every point: its buffer holds the block's rows inside the array, and
    on the rows past the array's end whatever the overwrite before the fetch left (`d`). -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-- What the proof data names for the weights' buffer is its block on the rows inside the array. -/
theorem cut_wblk (c : Dev nD) (t : Fin cfg0.N) : win0_1.cut (grid0.coords t) (wblk m c t) = iblk m c 1 t :=
  win0_1.cut_fill _ _ _

/-! ## The body at a point -/

/-- The body at any point `t`, with a predicate `R` of the output block it leaves that holds whatever the
    weights' buffer held past the array's end: each input's buffer comes back as it was found, the output's at
    contents satisfying `R`; the invariant and what the core owes pass through unread. -/
theorem sound_body (c : Dev nD) (t : Fin cfg0.N) (R : (S32x4096.Idx → Elt F .f32) → Prop)
    (hR : ∀ d1, R (outBlock (grid0.coords t) (iblk m c 0 t) (win0_1.fill (grid0.coords t) d1 (iblk m c 1 t)) (iblk m c 2 t) (iblk m c 3 t))) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ X, owns (c : Thread nD τ) (st0_4 t) fullShare X))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ (∃ d, owns (c : Thread nD τ) (st0_1 t) fullShare (win0_1.fill (grid0.coords t) d (win0_1.cut (grid0.coords t) ((dats m 0 c).after 1 t))))
        ∗ owns (c : Thread nD τ) (st0_2 t) fullShare ((dats m 0 c).after 2 t)
        ∗ owns (c : Thread nD τ) (st0_3 t) fullShare ((dats m 0 c).after 3 t)
        ∗ (∃ X, ⌜R X⌝ ∗ owns (c : Thread nD τ) (st0_4 t) fullShare X))) := by
  unfold bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, cut_wblk]
  iintro ⟨HΦ, Ho, ⟨%d0, H0⟩, ⟨%d1, H1⟩, ⟨%d2, H2⟩, ⟨%d3, H3⟩, ⟨%X4, H4⟩⟩
  iapply (sound_kernel c Set.univ (grid0.coords t) _ _ _ _ _ _ _ _ _ _ (iblk m c 0 t) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists d1; iexact H1
  isplitl [H2]; · iexact H2
  isplitl [H3]; · iexact H3
  iexists _; isplitr
  · ipureintro; exact hR d1
  · iexact H4

end Cert.KernelIdeal.Body

end
-- ==== Proof.Spec.lean ====
/-
  The masked logits, as one function of the four argument arrays over the extended reals:
    out[r, n] = (Σ_k h[r, k] · W[k, n] + b[n]) + (1 − mask[n]) · (−1e9),
  the two literals kept as the words both programs spell (1.0 and −1e9 in f32).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The word of `1.0` and the word of `−1e9`, read as extended reals. -/
abbrev oneW : EReal := Ideal.ofBits .f32 0x3F800000#32
abbrev negBigW : EReal := Ideal.ofBits .f32 0xCE6E6B28#32

/-- The projection of row `r` of the activations onto column `n` of the weights. -/
def proj (h : (⟨2, ![32, 768]⟩ : Shape).Idx → EReal) (W : (⟨2, ![768, 100000]⟩ : Shape).Idx → EReal)
    (r : Fin 32) (n : Fin 100000) : EReal :=
  ∑ k : Fin 768, h (ix2 r k) * W (ix2 k n)

/-- The masked logit at row `r`, column `n`. -/
def logit (h : (⟨2, ![32, 768]⟩ : Shape).Idx → EReal) (W : (⟨2, ![768, 100000]⟩ : Shape).Idx → EReal)
    (b mk : (⟨1, ![100000]⟩ : Shape).Idx → EReal) (r : Fin 32) (n : Fin 100000) : EReal :=
  (proj h W r n + b (ix1 n)) + (oneW - mk (ix1 n)) * negBigW

/-- The whole result array. -/
def logits (h : (⟨2, ![32, 768]⟩ : Shape).Idx → EReal) (W : (⟨2, ![768, 100000]⟩ : Shape).Idx → EReal)
    (b mk : (⟨1, ![100000]⟩ : Shape).Idx → EReal) : (⟨2, ![32, 100000]⟩ : Shape).Idx → EReal :=
  fun i => logit h W b mk ⟨(i 0).val, (i 0).isLt⟩ ⟨(i 1).val, (i 1).isLt⟩

theorem logits_ix2 (h : (⟨2, ![32, 768]⟩ : Shape).Idx → EReal) (W : (⟨2, ![768, 100000]⟩ : Shape).Idx → EReal)
    (b mk : (⟨1, ![100000]⟩ : Shape).Idx → EReal) (r : Fin 32) (n : Fin 100000) :
    logits h W b mk (ix2 r n) = logit h W b mk r n := rfl

/-- The reference adds `mask · 0` in front of the mask term: a zero, whatever the mask's entry. -/
theorem zero_term (x y : EReal) : x * Ideal.ofBits .f32 0x00000000#32 + y = y := by
  rw [Ideal.ofBits_zero_f32, mul_zero, zero_add]

end Cert.Spec

end
-- ==== Proof.IdealPayload.lean ====
/-
  The body's arithmetic at one entry of the output block, over the extended reals: at row `p`, column `q` it is
    (Σ_k h[p, k] · w[q, k] + bias[q]) + (1 − mask[q]) · (−1e9),
  `w` the block of the transposed weights, `bias` and `mask` the 4096 columns of the padded rows the point reads.
  The matrix product into a zero accumulator is the plain sum over the hidden axis; entry `(p, q)` reads row `q`
  of `w` and no other row.
-/
import proofs.«163261_g78194174591064_cont_9to1_m_1273_14_alg».proof.Proof.Gen.KernelIdeal.Skeleton
import proofs.«163261_g78194174591064_cont_9to1_m_1273_14_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-! ## The matrix product's operand indices -/

theorem lhs_dot_0 (i : S32x4096.Idx) (q : dot_S32x768_S4096x768_S32x4096_1_1_0_0_n_n.contr.Idx) :
    (dot_S32x768_S4096x768_S32x4096_1_1_0_0_n_n.lhsIdx i q 0).val = (i 0).val := by
  unfold DotDims.lhsIdx
  rw [dif_neg (show ¬(0 : Fin S32x768.rank) ∈ dot_S32x768_S4096x768_S32x4096_1_1_0_0_n_n.lhsBatch by decide), dif_pos (show (0 : Fin S32x768.rank) ∈ dot_S32x768_S4096x768_S32x4096_1_1_0_0_n_n.lhsNonContracting by decide)]
  rfl
theorem lhs_dot_1 (i : S32x4096.Idx) (q : dot_S32x768_S4096x768_S32x4096_1_1_0_0_n_n.contr.Idx) :
    (dot_S32x768_S4096x768_S32x4096_1_1_0_0_n_n.lhsIdx i q 1).val = (q ⟨0, by decide⟩).val :=
  dot_S32x768_S4096x768_S32x4096_1_1_0_0_n_n.lhsIdx_val_of_single rfl i q
theorem rhs_dot_0 (i : S32x4096.Idx) (q : dot_S32x768_S4096x768_S32x4096_1_1_0_0_n_n.contr.Idx) :
    (dot_S32x768_S4096x768_S32x4096_1_1_0_0_n_n.rhsIdx i q 0).val = (i 1).val := by
  unfold DotDims.rhsIdx
  rw [dif_neg (show ¬(0 : Fin S4096x768.rank) ∈ dot_S32x768_S4096x768_S32x4096_1_1_0_0_n_n.rhsBatch by decide), dif_pos (show (0 : Fin S4096x768.rank) ∈ dot_S32x768_S4096x768_S32x4096_1_1_0_0_n_n.rhsNonContracting by decide)]
  rfl
theorem rhs_dot_1 (i : S32x4096.Idx) (q : dot_S32x768_S4096x768_S32x4096_1_1_0_0_n_n.contr.Idx) :
    (dot_S32x768_S4096x768_S32x4096_1_1_0_0_n_n.rhsIdx i q 1).val = (q ⟨0, by decide⟩).val :=
  dot_S32x768_S4096x768_S32x4096_1_1_0_0_n_n.rhsIdx_val_of_single rfl i q

/-- Into the zero accumulator, the product of the activations and the transposed-weights block at `(p, q)` is the
    sum over the hidden axis of `h[p, k] · w[q, k]`: both operands are contracted on their second axis. -/
theorem matmul_at (v0 : FVec Ideal S32x768 .f32) (v1 : FVec Ideal S4096x768 .f32) (p : Fin 32) (q : Fin 4096) :
    matmul dot_S32x768_S4096x768_S32x4096_1_1_0_0_n_n none v0 v1 (constant (F := Ideal) S32x4096 .f32 0x00000000#32) (ix2 p q)
      = ∑ k : Fin 768, v0 (ix2 p k) * v1 (ix2 q k) := by
  simp only [matmul]
  rw [Ideal.matmul_constant_zero_apply, ← Equiv.sum_comp (ValueIdx.contrEquiv1 dot_S32x768_S4096x768_S32x4096_1_1_0_0_n_n 768 rfl rfl).symm]
  refine Finset.sum_congr rfl fun k _ => ?_
  have hk := ValueIdx.contrEquiv1_symm_val dot_S32x768_S4096x768_S32x4096_1_1_0_0_n_n 768 rfl rfl k
  have el : dot_S32x768_S4096x768_S32x4096_1_1_0_0_n_n.lhsIdx (ix2 p q) ((ValueIdx.contrEquiv1 dot_S32x768_S4096x768_S32x4096_1_1_0_0_n_n 768 rfl rfl).symm k) = ix2 p k := funext fun a => Fin.ext (by
    match a with
    | ⟨0, _⟩ => exact lhs_dot_0 _ _
    | ⟨1, _⟩ => exact (lhs_dot_1 _ _).trans hk)
  have er : dot_S32x768_S4096x768_S32x4096_1_1_0_0_n_n.rhsIdx (ix2 p q) ((ValueIdx.contrEquiv1 dot_S32x768_S4096x768_S32x4096_1_1_0_0_n_n 768 rfl rfl).symm k) = ix2 q k := funext fun a => Fin.ext (by
    match a with
    | ⟨0, _⟩ => exact rhs_dot_0 _ _
    | ⟨1, _⟩ => exact (rhs_dot_1 _ _).trans hk)
  rw [el, er]

/-- A row of 4096 entries broadcast over the 32 rows reads, at `(p, q)`, its entry `q`. -/
theorem row_bcast_at (x : FVec Ideal S1x4096 .f32) (p : Fin 32) (q : Fin 4096) :
    broadcastTo S32x4096 x broadcasts_S1x4096_S32x4096 (ix2 p q) = x (ix2 0 q) :=
  broadcastTo_apply x broadcasts_S1x4096_S32x4096 (ix2 p q) (ix2 0 q) (fun a => match a with
    | ⟨0, _⟩ => by show 0 = if (1 : Nat) = 1 then 0 else _; rw [if_pos rfl]
    | ⟨1, _⟩ => by show q.val = if (4096 : Nat) = 1 then 0 else q.val; rw [if_neg (by decide)])

/-- The payload at `(p, q)`. -/
theorem pay_at (v0 : Vec Ideal S32x768 .f32) (v1 : Vec Ideal S4096x768 .f32) (v6 v10 : Vec Ideal S1x4096 .f32) (p : Fin 32) (q : Fin 4096) :
    k0_pay1 (F := Ideal) v0 v1 v6 v10 (ix2 p q)
      = ((∑ k : Fin 768, v0 (ix2 p k) * v1 (ix2 q k)) + v6 (ix2 0 q)) + (Cert.Spec.oneW - v10 (ix2 0 q)) * Cert.Spec.negBigW := by
  unfold k0_pay1
  simp only [shapeCast_self]
  show (matmul dot_S32x768_S4096x768_S32x4096_1_1_0_0_n_n none v0 v1 (constant (F := Ideal) S32x4096 .f32 0x00000000#32) (ix2 p q)
      + broadcastTo S32x4096 v6 broadcasts_S1x4096_S32x4096 (ix2 p q))
    + broadcastTo S32x4096 (mulf (subf (broadcast S1x4096 (Scalar.ofBits (F := Ideal) .f32 0x3F800000#32)) v10) (broadcast S1x4096 (Scalar.ofBits (F := Ideal) .f32 0xCE6E6B28#32))) broadcasts_S1x4096_S32x4096 (ix2 p q) = _
  rw [matmul_at, row_bcast_at, row_bcast_at]
  rfl

/-- Entry `(p, q)` depends on row `q` of the weights block only: two blocks that agree on it give one entry. -/
theorem pay_at_congr (v0 : Vec Ideal S32x768 .f32) (v1 v1' : Vec Ideal S4096x768 .f32) (v6 v10 : Vec Ideal S1x4096 .f32) (p : Fin 32) (q : Fin 4096)
    (h : ∀ k : Fin 768, v1 (ix2 q k) = v1' (ix2 q k)) :
    k0_pay1 (F := Ideal) v0 v1 v6 v10 (ix2 p q) = k0_pay1 (F := Ideal) v0 v1' v6 v10 (ix2 p q) := by
  rw [pay_at, pay_at]
  simp only [h]

end Cert.KernelIdeal.Payload

end
-- ==== Proof.IdealRun.lean ====
/-
  The idealized program's run, with every staging buffer's contents named. The one thing to show beyond the
  body's triple: the last grid point's weights block overhangs the array, so the rows of its staging buffer past
  the array's end hold words nothing names — but an output column is computed from its own weights row only, and
  the output block overhangs by the same columns, so what is written back does not depend on them.
-/
import proofs.«163261_g78194174591064_cont_9to1_m_1273_14_alg».proof.Proof.IdealBody
import proofs.«163261_g78194174591064_cont_9to1_m_1273_14_alg».proof.Proof.IdealPayload

set_option maxRecDepth 16384

noncomputable section

namespace Cert.KernelIdeal.Run

open Cert.KernelIdeal Cert.KernelIdeal.Gen Cert.KernelIdeal.Body Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The output block as the payload of the loaded values -/

theorem zero_off : (![0, 0] : Fin 2 → Nat) = fun _ => 0 := funext fun a => by fin_cases a <;> rfl

/-- The one whole-buffer store leaves its payload; the two whole-buffer loads read the buffers. -/
theorem outBlock_eq (i : grid0.Coords) (x0 : Vec Ideal S32x768 .f32) (x1 : Vec Ideal S4096x768 .f32) (x2 x3 : Vec Ideal S1x102400 .f32) :
    outBlock (F := Ideal) i x0 x1 x2 x3 = k0_pay1 x0 x1 (View.ld x2 (rRow i)) (View.ld x3 (rRow i)) := by
  unfold outBlock
  rw [View.canon_unit_zero zero_off]
  simp only [View.ld_unit_zero (S := S32x768) zero_off, View.ld_unit_zero (S := S4096x768) zero_off]

/-! ## The cuts at the arrays' end -/

/-- At every grid point the weights block has as many rows inside its array as the output block has columns
    inside its own (4096, or 1696 at the last point); the weights' 768 columns and the output's 32 rows are
    never cut. -/
theorem cut_sizes : ∀ t : Fin cfg0.N, win0_1.xsize (grid0.coords t) 0 = win0_4.xsize (grid0.coords t) 1
      ∧ win0_1.xsize (grid0.coords t) 1 = 768 ∧ win0_4.xsize (grid0.coords t) 0 = 32 :=
  (by decide +kernel : ∀ t : Fin grid0.N, win0_1.xsize (grid0.coords t) 0 = win0_4.xsize (grid0.coords t) 1
      ∧ win0_1.xsize (grid0.coords t) 1 = 768 ∧ win0_4.xsize (grid0.coords t) 0 = 32)

/-- On a row inside the array, a fetched weights buffer holds the block whatever it held before. -/
theorem fill_row_congr {α : Type} (t : Fin cfg0.N) (d d' : S4096x768.Idx → α) (g : (win0_1.xblock (grid0.coords t)).Idx → α)
    (q : Fin 4096) (k : Fin 768) (hq : q.val < win0_1.xsize (grid0.coords t) 0) :
    win0_1.fill (grid0.coords t) d g (ix2 q k) = win0_1.fill (grid0.coords t) d' g (ix2 q k) := by
  have hm : win0_1.moved (grid0.coords t) (ix2 q k) = true := (win0_1.moved_iff _ _).mpr fun a => by
    match a with
    | ⟨0, _⟩ => exact hq
    | ⟨1, _⟩ =>
      have h1 := (cut_sizes t).2.1
      show k.val < win0_1.xsize (grid0.coords t) 1
      rw [h1]; exact k.isLt
  unfold Window.fill; rw [dif_pos hm, dif_pos hm]

/-- The part of the output block that is written back is the same whatever the weights buffer held past the
    array's end. -/
theorem cut_outBlock_congr (t : Fin cfg0.N) (x0 : Vec Ideal S32x768 .f32) (d d' : S4096x768.Idx → Elt Ideal .f32)
    (g : (win0_1.xblock (grid0.coords t)).Idx → Elt Ideal .f32) (x2 x3 : Vec Ideal S1x102400 .f32) :
    win0_4.cut (grid0.coords t) (outBlock (F := Ideal) (grid0.coords t) x0 (win0_1.fill (grid0.coords t) d g) x2 x3)
      = win0_4.cut (grid0.coords t) (outBlock (F := Ideal) (grid0.coords t) x0 (win0_1.fill (grid0.coords t) d' g) x2 x3) := by
  funext y
  show outBlock (F := Ideal) _ _ _ _ _ (win0_4.xinj (grid0.coords t) y) = outBlock (F := Ideal) _ _ _ _ _ (win0_4.xinj (grid0.coords t) y)
  rw [outBlock_eq, outBlock_eq]
  have hy1 : (y 1).val < win0_4.xsize (grid0.coords t) 1 := (y 1).isLt
  have hq : (win0_4.xinj (grid0.coords t) y 1).val < win0_1.xsize (grid0.coords t) 0 := by
    rw [(cut_sizes t).1]; exact hy1
  rw [eq_ix2 (win0_4.xinj (grid0.coords t) y)]
  exact pay_at_congr _ _ _ _ _ _ _ fun k => fill_row_congr t d d' g _ k hq

/-! ## The body obligation -/

theorem before0_4 (c : Dev nD) (t : Fin cfg0.N) (d) : (dats m 0 c).before 4 t d = d :=
  (dats m 0 c).before_out_reset 4 rfl t (by
    by_cases h0 : t.val = 0
    · exact .inl h0
    · exact .inr ⟨h0, flush0_4 _⟩) d

/-- The output's buffer is handed to the body at contents nothing names. -/
theorem out_any (c : Dev nD) (t : Fin cfg0.N) :
    (iprop(∃ d, owns (c : Thread nD τ) (st0_4 t) fullShare ((dats m 0 c).before 4 t d)) : sProp 𝕄)
      ⊢ iprop(∃ X, owns (c : Thread nD τ) (st0_4 t) fullShare X) := by
  iintro ⟨%d, H⟩; iexists _; iexact H

/-- At every point: the inputs' buffers come back as found (the weights' stated on the rows inside the array),
    and the output's holds, on the columns inside the array, the block the proof data names. -/
theorem body_obligation (c : Dev nD) :
    BodyObligationLoose (dats (F := Ideal) m 0 c) (defs₀ (F := Ideal)) Variants.none () Set.univ := fun t => by
  rw [bigSep_W0, bigSep_W0]
  simp only
  refine (BI.sep_mono_r (BI.sep_mono_r (BI.sep_mono_r (BI.sep_mono_r (BI.sep_mono_r (BI.sep_mono_r ?_)))))).trans
    ((sound_body m c t (fun X => ∃ d, X = win0_4.fill (grid0.coords t) d (win0_4.cut (grid0.coords t) ((dats m 0 c).after 4 t)))
      (fun d1 => ⟨_, by
        rw [after0_4]; unfold wblk
        exact (win0_4.fill_congr_cut (grid0.coords t) (cut_outBlock_congr t _ d1 _ _ _ _)).symm⟩)).trans (wp_mono _ _ _ fun _ => ?_))
  · exact out_any m c t
  · iintro ⟨HΦ, Ho, H0, H1, H2, H3, ⟨%X, %hX, H4⟩⟩
    obtain ⟨d, rfl⟩ := hX
    isplitl [HΦ]; · iexact HΦ
    isplitl [Ho]; · iexact Ho
    isplitl [H0]; · iexact H0
    isplitl [H1]; · iexact H1
    isplitl [H2]; · iexact H2
    isplitl [H3]; · iexact H3
    iexists d; iexact H4

/-! ## The run and the frame -/

set_option backward.isDefEq.respectTransparency.types false in
/-- Every weakly fair execution of @main terminates; every windowed array ends at what the library computes
    from the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame claim's post. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Run

end
-- ==== Proof.IdealValue.lean ====
/-
  What the kernel's result array holds after the run, over the extended reals: the masked logits of the four
  argument arrays. The windows' arrays are host-made copies — the weights transposed, the bias and the mask
  padded with 2400 zeros and reshaped to a row —; grid point `t` computes columns `t·4096 ‥` of the result from
  rows `t·4096 ‥` of the transposed weights and the same columns of the two rows; the 25 blocks' parts inside
  the array are columns 0 ‥ 99999, each written once.
-/
import proofs.«163261_g78194174591064_cont_9to1_m_1273_14_alg».proof.Proof.IdealRun
import Idealize.ShloMosaic.Lib.StableHlo.Run
import Idealize.ShloMosaic.Lib.ValueLayout
import Idealize.ShloMosaic.Lib.KernelVsHost

set_option maxRecDepth 16384

noncomputable section

namespace Cert.KernelIdeal.ValueProof

open Cert.KernelIdeal Cert.KernelIdeal.Gen Cert.KernelIdeal.Body Cert.KernelIdeal.Payload Cert.KernelIdeal.Run
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

/-! ## The host-made arrays at the region's entry -/

/-- The weights' window stages the transposed weights. -/
theorem V_wt (c : Dev nD) : (V m c main_v0 : S100000x768.Idx → EReal)
    = transpose S100000x768 [1, 0] (m ((c : Thread nD τ).loc main_arg1)) transposes_S768x100000_S100000x768_1_0 := by
  dsimp only [V]
  simp only [hostOps0, hostOps0_1, hostOps0_2, hostOps0_3, hostOps0_4, List.flatten_cons, List.flatten_nil, List.append_nil,
    List.cons_append, List.nil_append]
  after_results <;> rfl

/-- The bias row: the bias padded with zeros to 102400 entries, as one row. -/
theorem V_bias (c : Dev nD) : (V m c main_v2 : S1x102400.Idx → EReal)
    = shapeCast S1x102400 (pad S102400 ![0] ![2400] ![0] (m ((c : Thread nD τ).loc main_arg2))
        (sitofp (F := Ideal) .f32 (constantI S_ 32 0#32)) pads_S100000_S102400_024000 h_S_) shapeCasts_S102400_S1x102400 := by
  dsimp only [V]
  simp only [hostOps0, hostOps0_1, hostOps0_2, hostOps0_3, hostOps0_4, List.flatten_cons, List.flatten_nil, List.append_nil,
    List.cons_append, List.nil_append]
  after_results <;> rfl

/-- The mask row, likewise. -/
theorem V_mask (c : Dev nD) : (V m c main_v4 : S1x102400.Idx → EReal)
    = shapeCast S1x102400 (pad S102400 ![0] ![2400] ![0] (m ((c : Thread nD τ).loc main_arg3))
        (sitofp (F := Ideal) .f32 (constantI S_ 32 0#32)) pads_S100000_S102400_024000 h_S_) shapeCasts_S102400_S1x102400 := by
  dsimp only [V]
  simp only [hostOps0, hostOps0_1, hostOps0_2, hostOps0_3, hostOps0_4, List.flatten_cons, List.flatten_nil, List.append_nil,
    List.cons_append, List.nil_append]
  after_results <;> rfl

/-- Row `n` of the transposed weights is column `n` of the weights. -/
theorem wt_at (c : Dev nD) (n : Fin 100000) (k : Fin 768) :
    (V m c main_v0 : S100000x768.Idx → EReal) (ix2 n k) = m ((c : Thread nD τ).loc main_arg1) (ix2 k n) := by
  rw [V_wt]; exact transpose_ix2_apply _ _ n k

/-- A padded row read at a column below 100000 is the unpadded array's entry. -/
theorem padded_row_at (x : S100000.Idx → EReal) (n : Fin 102400) (hn : n.val < 100000) :
    shapeCast S1x102400 (pad S102400 ![0] ![2400] ![0] x
        (sitofp (F := Ideal) .f32 (constantI S_ 32 0#32)) pads_S100000_S102400_024000 h_S_) shapeCasts_S102400_S1x102400 (ix2 0 n)
      = x (ix1 ⟨n.val, hn⟩) := by
  rw [shapeCast_apply _ shapeCasts_S102400_S1x102400 (ix2 0 n) (ix1 n)
    (by rewrite [Shape.rowMajor_val_one, Shape.rowMajor_val_two]; show n.val = 0 * 102400 + n.val; omega)]
  exact pad_apply_of_inside _ _ _ x _ pads_S100000_S102400_024000 h_S_ (ix1 n) (ix1 ⟨n.val, hn⟩)
    (fun a => match a with | ⟨0, _⟩ => by show n.val = 0 + n.val * (0 + 1); omega)

theorem bias_at (c : Dev nD) (n : Fin 102400) (hn : n.val < 100000) :
    (V m c main_v2 : S1x102400.Idx → EReal) (ix2 0 n) = m ((c : Thread nD τ).loc main_arg2) (ix1 ⟨n.val, hn⟩) := by
  rw [V_bias]; exact padded_row_at _ n hn
theorem mask_at (c : Dev nD) (n : Fin 102400) (hn : n.val < 100000) :
    (V m c main_v4 : S1x102400.Idx → EReal) (ix2 0 n) = m ((c : Thread nD τ).loc main_arg3) (ix1 ⟨n.val, hn⟩) := by
  rw [V_mask]; exact padded_row_at _ n hn

/-! ## The windows' blocks at a grid point -/

/-- The block indices over the grid: the activations' and the two rows' blocks are their whole arrays; the
    weights' block `t` is rows `t·4096 ‥`, the output's columns `t·4096 ‥`. -/
theorem index_facts : ∀ t : Fin cfg0.N,
    win0_0.index t 0 = 0 ∧ win0_0.index t 1 = 0
    ∧ win0_1.index t 0 = t.val ∧ win0_1.index t 1 = 0
    ∧ win0_2.index t 0 = 0 ∧ win0_2.index t 1 = 0
    ∧ win0_3.index t 0 = 0 ∧ win0_3.index t 1 = 0
    ∧ win0_4.index t 0 = 0 ∧ win0_4.index t 1 = t.val
    ∧ (grid0.coords t 0).val = t.val :=
  (by decide +kernel : ∀ t : Fin grid0.N,
    win0_0.index t 0 = 0 ∧ win0_0.index t 1 = 0
    ∧ win0_1.index t 0 = t.val ∧ win0_1.index t 1 = 0
    ∧ win0_2.index t 0 = 0 ∧ win0_2.index t 1 = 0
    ∧ win0_3.index t 0 = 0 ∧ win0_3.index t 1 = 0
    ∧ win0_4.index t 0 = 0 ∧ win0_4.index t 1 = t.val
    ∧ (grid0.coords t 0).val = t.val)

/-- The output block's columns inside the array end where the array does, or where the block does. -/
theorem span_facts : ∀ t : Fin cfg0.N, t.val * 4096 + win0_4.xsize (grid0.coords t) 1 = min ((t.val + 1) * 4096) 100000 :=
  (by decide +kernel : ∀ t : Fin grid0.N, t.val * 4096 + win0_4.xsize (grid0.coords t) 1 = min ((t.val + 1) * 4096) 100000)

/-- The activations' block is the activations. -/
theorem hblk_eq (c : Dev nD) (t : Fin cfg0.N) : (iblk m c 0 t : S32x768.Idx → EReal) = m ((c : Thread nD τ).loc main_arg0) := by
  funext y
  show V m c main_arg0 (((cfg0.win 0).blk t).view.emb y) = _
  rw [V_main_arg0]
  refine congrArg _ (funext fun a => Fin.ext ?_)
  obtain ⟨h0, h1, -⟩ := index_facts t
  match a with
  | ⟨0, _⟩ => show win0_0.index t 0 * 32 + 1 * (y 0).val = (y 0).val; rw [h0]; omega
  | ⟨1, _⟩ => show win0_0.index t 1 * 768 + 1 * (y 1).val = (y 1).val; rw [h1]; omega

/-- The two rows' blocks are the rows. -/
theorem bias_blk_eq (c : Dev nD) (t : Fin cfg0.N) : (iblk m c 2 t : S1x102400.Idx → EReal) = V m c main_v2 := by
  funext y
  show V m c main_v2 (((cfg0.win 2).blk t).view.emb y) = V m c main_v2 y
  refine congrArg _ (funext fun a => Fin.ext ?_)
  obtain ⟨-, -, -, -, h0, h1, -⟩ := index_facts t
  match a with
  | ⟨0, _⟩ => show win0_2.index t 0 * 1 + 1 * (y 0).val = (y 0).val; rw [h0]; omega
  | ⟨1, _⟩ => show win0_2.index t 1 * 102400 + 1 * (y 1).val = (y 1).val; rw [h1]; omega
theorem mask_blk_eq (c : Dev nD) (t : Fin cfg0.N) : (iblk m c 3 t : S1x102400.Idx → EReal) = V m c main_v4 := by
  funext y
  show V m c main_v4 (((cfg0.win 3).blk t).view.emb y) = V m c main_v4 y
  refine congrArg _ (funext fun a => Fin.ext ?_)
  obtain ⟨-, -, -, -, -, -, h0, h1, -⟩ := index_facts t
  match a with
  | ⟨0, _⟩ => show win0_3.index t 0 * 1 + 1 * (y 0).val = (y 0).val; rw [h0]; omega
  | ⟨1, _⟩ => show win0_3.index t 1 * 102400 + 1 * (y 1).val = (y 1).val; rw [h1]; omega

/-- Row `q` of the weights' buffer at point `t`, a row inside the array, is column `t·4096 + q` of the weights. -/
theorem wrow_at (c : Dev nD) (t : Fin cfg0.N) (q : Fin 4096) (k : Fin 768) (hq : q.val < win0_1.xsize (grid0.coords t) 0)
    (hn : t.val * 4096 + q.val < 100000) :
    wblk m c t (ix2 q k) = m ((c : Thread nD τ).loc main_arg1) (ix2 k ⟨t.val * 4096 + q.val, hn⟩) := by
  have hk : k.val < win0_1.xsize (grid0.coords t) 1 := by rw [(cut_sizes t).2.1]; exact k.isLt
  let j : (win0_1.xblock (grid0.coords t)).Idx := fun a => match a with
    | ⟨0, _⟩ => ⟨q.val, hq⟩
    | ⟨1, _⟩ => ⟨k.val, hk⟩
  have hj : ix2 q k = win0_1.xinj (grid0.coords t) j := funext fun a => Fin.ext (by match a with | ⟨0, _⟩ => rfl | ⟨1, _⟩ => rfl)
  unfold wblk
  rw [hj, win0_1.fill_xinj]
  show V m c main_v0 (((cfg0.win 1).blk t).view.emb j) = _
  rw [← wt_at m c ⟨t.val * 4096 + q.val, hn⟩ k]
  refine congrArg _ (funext fun a => Fin.ext ?_)
  obtain ⟨-, -, h0, h1, -⟩ := index_facts t
  match a with
  | ⟨0, _⟩ => show win0_1.index t 0 * 4096 + 1 * q.val = t.val * 4096 + q.val; rw [h0]; omega
  | ⟨1, _⟩ => show win0_1.index t 1 * 768 + 1 * k.val = k.val; rw [h1]; omega

/-- The point's load of a padded row reads, at column `q`, the row's column `t·4096 + q`. -/
theorem row_ld_at (X : Vec Ideal S1x102400 .f32) (t : Fin cfg0.N) (q : Fin 4096) (hn : t.val * 4096 + q.val < 102400) :
    View.ld X (rRow (grid0.coords t)) (ix2 0 q) = X (ix2 0 ⟨t.val * 4096 + q.val, hn⟩) := by
  show X ((rRow (grid0.coords t)).idx (ix2 0 q)) = _
  refine congrArg X (funext fun a => Fin.ext ?_)
  have ho := k0_off1_eq (grid0.coords t)
  have ht := (index_facts t).2.2.2.2.2.2.2.2.2.2
  match a with
  | ⟨0, _⟩ => show k0_off1 (grid0.coords t) 0 + 1 * 0 = 0; rw [ho]; rfl
  | ⟨1, _⟩ =>
    show k0_off1 (grid0.coords t) 1 + 1 * q.val = t.val * 4096 + q.val
    rw [ho]; show 4096 * (grid0.coords t 0).val + 1 * q.val = _; rw [ht]; omega

/-! ## One entry of the output block -/

/-- What the body leaves at row `p`, column `q` of the output's buffer at point `t`, a column inside the array:
    the masked logit at row `p`, column `t·4096 + q`. -/
theorem out_entry (c : Dev nD) (t : Fin cfg0.N) (p : Fin 32) (q : Fin 4096) (hq : q.val < win0_4.xsize (grid0.coords t) 1)
    (hn : t.val * 4096 + q.val < 100000) :
    (dats m 0 c).after 4 t (ix2 p q)
      = Cert.Spec.logit (m ((c : Thread nD τ).loc main_arg0)) (m ((c : Thread nD τ).loc main_arg1))
          (m ((c : Thread nD τ).loc main_arg2)) (m ((c : Thread nD τ).loc main_arg3)) p ⟨t.val * 4096 + q.val, hn⟩ := by
  have hs : ∀ k : Fin 768, wblk m c t (ix2 q k) = m ((c : Thread nD τ).loc main_arg1) (ix2 k ⟨t.val * 4096 + q.val, hn⟩) :=
    fun k => wrow_at m c t q k (by rw [(cut_sizes t).1]; exact hq) hn
  rw [after0_4, outBlock_eq, pay_at, row_ld_at _ t q (by omega), row_ld_at _ t q (by omega), bias_blk_eq, mask_blk_eq,
    bias_at m c _ hn, mask_at m c _ hn, hblk_eq]
  simp only [hs]
  rfl

/-! ## From the blocks to the array -/

/-- The masked logits as the result buffer's contents. -/
def G (c : Dev nD) : Buf (Elt Ideal) ((c.tc : Thread nD τ).loc main_v5) :=
  Cert.Spec.logits (m ((c : Thread nD τ).loc main_arg0)) (m ((c : Thread nD τ).loc main_arg1))
    (m ((c : Thread nD τ).loc main_arg2)) (m ((c : Thread nD τ).loc main_arg3))

/-- What point `t` writes back is the masked logits read through its block. -/
theorem flushed_eq (c : Dev nD) (t : Fin cfg0.N) :
    (dats m 0 c).flushed 4 t = ((cfg0.win 4).blk t).view.read (Elt Ideal) (G m c) := by
  funext y
  have hy0 : (y 0).val < win0_4.xsize (grid0.coords t) 0 := (y 0).isLt
  have hy1 : (y 1).val < win0_4.xsize (grid0.coords t) 1 := (y 1).isLt
  have hsp := span_facts t
  obtain ⟨-, -, -, -, -, -, -, -, h40, h41, -⟩ := index_facts t
  have h32 := (cut_sizes t).2.2
  have hn : t.val * 4096 + (y 1).val < 100000 := by omega
  have hq : (y 1).val < 4096 := by omega
  have hp : (y 0).val < 32 := by omega
  show (dats m 0 c).after 4 t (win0_4.xinj (grid0.coords t) y) = G m c (((cfg0.win 4).blk t).view.emb y)
  have e1 : win0_4.xinj (grid0.coords t) y = ix2 (⟨(y 0).val, hp⟩ : Fin 32) (⟨(y 1).val, hq⟩ : Fin 4096) :=
    funext fun a => Fin.ext (by match a with | ⟨0, _⟩ => rfl | ⟨1, _⟩ => rfl)
  have e2 : ((cfg0.win 4).blk t).view.emb y = ix2 (⟨(y 0).val, hp⟩ : Fin 32) (⟨t.val * 4096 + (y 1).val, hn⟩ : Fin 100000) :=
    funext fun a => Fin.ext (by
      match a with
      | ⟨0, _⟩ => show win0_4.index t 0 * 32 + 1 * (y 0).val = (y 0).val; rw [h40]; omega
      | ⟨1, _⟩ => show win0_4.index t 1 * 4096 + 1 * (y 1).val = t.val * 4096 + (y 1).val; rw [h41]; omega)
  rw [e1, e2, out_entry m c t _ _ hy1 hn]
  rfl

/-- Column `n` of the result lies in block `n / 4096`. -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0).val < 32 := (i 0).isLt
  have h1 : (i 1).val < 100000 := (i 1).isLt
  have hN : cfg0.N = 25 := N_0
  refine ⟨⟨(i 1).val / 4096, by rw [hN]; omega⟩, flush0_4 _, ?_⟩
  generalize ht : (⟨(i 1).val / 4096, by rw [hN]; omega⟩ : Fin cfg0.N) = t
  have htv : t.val = (i 1).val / 4096 := by rw [← ht]
  show i ∈ ((View.whole main_v5).slice (win0_4.rect t)).set
  rw [View.set_slice_whole, Rect.mem_set_unit]
  have hsp := span_facts t
  obtain ⟨-, -, -, -, -, -, -, -, h40, h41, -⟩ := index_facts t
  have h32 := (cut_sizes t).2.2
  intro a
  match a with
  | ⟨0, _⟩ =>
    show win0_4.index t 0 * 32 ≤ (i 0).val ∧ (i 0).val < win0_4.index t 0 * 32 + win0_4.xsize (grid0.coords t) 0
    rw [h40, h32]; omega
  | ⟨1, _⟩ =>
    show win0_4.index t 1 * 4096 ≤ (i 1).val ∧ (i 1).val < win0_4.index t 1 * 4096 + win0_4.xsize (grid0.coords t) 1
    rw [h41]; omega

/-- After the run the result array holds the masked logits. -/
theorem final (c : Dev nD) : (dats m 0 c).arrAt 4 cfg0.N = G m c :=
  (dats m 0 c).arrAt_eq_of_cover 4 (G m c) (fun t _ => flushed_eq m c t) (cover c)

/-- The run, with the result named and the arguments unchanged. -/
theorem run : θ_run defs (onTc (τ := τ) (main (F := Ideal))) ⟨m, fun _ => 0, ρ⟩ (fun r => ∀ c : Dev nD,
      r.2.mem ((c.tc : Thread nD τ).loc main_v5) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.ValueProof

end
-- ==== Proof.RefValue.lean ====
/-
  The reference's result is the masked logits: its matrix product is the sum over the hidden axis, its two
  broadcasts of the bias and its reshape-and-broadcast of the mask read entry `n` of each at column `n`, and the
  extra term `mask · 0` it adds in front of `(1 − mask) · (−1e9)` is zero.
-/
import proofs.«163261_g78194174591064_cont_9to1_m_1273_14_alg».proof.Proof.Gen.ReferenceIdeal.Run
import proofs.«163261_g78194174591064_cont_9to1_m_1273_14_alg».proof.Proof.Gen.ReferenceIdeal.Read
import proofs.«163261_g78194174591064_cont_9to1_m_1273_14_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The product's operand indices at output `(r, n)` and hidden index `k`: `(r, k)` and `(k, n)`. -/
theorem lidx_eq (r : Fin 32) (n : Fin 100000) (k : Fin 768) : lidx_main_v0 (ix2 r n) k = ix2 r k :=
  funext fun a => Fin.ext (by match a with | ⟨0, _⟩ => rfl | ⟨1, _⟩ => rfl)
theorem ridx_eq (r : Fin 32) (n : Fin 100000) (k : Fin 768) : ridx_main_v0 (ix2 r n) k = ix2 k n :=
  funext fun a => Fin.ext (by match a with | ⟨0, _⟩ => rfl | ⟨1, _⟩ => rfl)
/-- The bias, broadcast twice, is read at the column. -/
theorem bias_idx_eq (r : Fin 32) (n : Fin 100000) : idx_main_v1 (idx_main_v2 (ix2 r n)) = ix1 n :=
  funext fun a => Fin.ext (by match a with | ⟨0, _⟩ => rfl)
/-- The mask, reshaped to a row and broadcast, is read at the column. -/
theorem mask_idx_eq (r : Fin 32) (n : Fin 100000) : idx_main_v4 (idx_main_v12 (ix2 r n)) = ix1 n :=
  funext fun a => Fin.ext (by match a with | ⟨0, _⟩ => exact (by show 0 * 100000 + n.val = n.val; omega))

/-- The reference's last stage is the masked logits. -/
theorem result_eq (x0 : S32x768.Idx → EReal) (x1 : S768x100000.Idx → EReal) (x2 x3 : S100000.Idx → EReal) :
    val_main_v13 (F := Ideal) x0 x1 x2 x3 = Cert.Spec.logits x0 x1 x2 x3 := by
  funext i
  obtain ⟨r, n, rfl⟩ : ∃ (r : Fin 32) (n : Fin 100000), i = ix2 r n := ⟨i 0, i 1, eq_ix2 i⟩
  rw [Cert.Spec.logits_ix2]
  simp only [val_main_v13_apply, val_main_v3_apply, val_main_v0_apply, val_main_v2_apply, val_main_v1_apply,
    val_main_v12_apply, val_main_v11_apply, val_main_v6_apply, val_main_v10_apply, val_main_v4_apply,
    val_main_v5_apply, val_main_v8_apply, val_main_v7_apply, val_main_v9_apply, val_main_cst_apply,
    val_main_cst_0_apply, val_main_cst_1_apply, lidx_eq, ridx_eq, bias_idx_eq, mask_idx_eq,
    Ideal.addf_def, Ideal.mulf_def, Ideal.subf_def, Ideal.ofBits_def, Cert.Spec.zero_term]
  rfl

end Cert.ReferenceIdeal.RefValue

end
-- ==== Proof.lean ====
/-
  The kernel computes the masked vocabulary logits
      out[r, n] = (Σ_k hidden[r, k] · W[k, n] + b[n]) + (1 − mask[n]) · (−1e9)
  one block of 4096 vocabulary columns per grid point, from the matching 4096 rows of the transposed weights
  and the matching columns of the bias and the mask, both padded with zeros to 25 · 4096 columns. The reference
  computes `(hidden @ W + b) + (mask · 0 + (1 − mask) · (−1e9))`.

  Over the extended reals the two agree entry by entry: the kernel's matrix product into a zero accumulator and
  the host's `dot_general` are the same sum over the hidden axis; the transposition, the padding (read only below
  column 100000) and the reshapes move entries without changing them; and the reference's extra term `mask · 0` is
  zero whatever the mask's entry, so that no finiteness of the inputs is used. The last block (columns 98304 ‥
  102399) overhangs the arrays by 2400 columns: the rows of the weights' staging buffer past row 99999 hold words
  nothing names, but an output column is computed from its own weights row alone, and the write-back is cut at
  column 99999, so nothing written depends on them.

  The three programs run to the end, fault nowhere and leave their arguments unchanged: the idealized kernel with
  every staging buffer's contents named; the word-level kernel with the output's staging contents left unnamed
  (at bit patterns the matrix unit's result is not known column by column); the reference as its host
  operations in order. The idealization rewrote nothing, so its ledger is empty.
-/
import proofs.«163261_g78194174591064_cont_9to1_m_1273_14_alg».proof.Defs
import proofs.«163261_g78194174591064_cont_9to1_m_1273_14_alg».proof.Proof.Gen.Kernel
import proofs.«163261_g78194174591064_cont_9to1_m_1273_14_alg».proof.Proof.Gen.KernelIdeal
import proofs.«163261_g78194174591064_cont_9to1_m_1273_14_alg».proof.Proof.Gen.ReferenceIdeal
import proofs.«163261_g78194174591064_cont_9to1_m_1273_14_alg».proof.Proof.Gen.Pre_finite_inputs
import proofs.«163261_g78194174591064_cont_9to1_m_1273_14_alg».proof.Proof.KernelFrame
import proofs.«163261_g78194174591064_cont_9to1_m_1273_14_alg».proof.Proof.IdealValue
import proofs.«163261_g78194174591064_cont_9to1_m_1273_14_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.FrameProof.frame (F := Bits) m ρ

theorem frame_kernelIdeal : Cert.frame_KernelIdeal := fun m ρ _ => Cert.KernelIdeal.Run.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the masked logits of the (agreeing) arguments in their result arrays. -/
theorem algebraic : Cert.algebraic_KernelIdeal_ReferenceIdeal := by
  intro m ρ m' ρ' _ hagree
  refine ⟨fun c => Cert.KernelIdeal.ValueProof.G m c, Cert.KernelIdeal.ValueProof.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
